-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S2x5000x10000 : Shape := ⟨3, ![2, 5000, 10000]⟩
abbrev S2x5000x256 : Shape := ⟨3, ![2, 5000, 256]⟩
abbrev S2x200x10000 : Shape := ⟨3, ![2, 200, 10000]⟩
abbrev S2x200x256 : Shape := ⟨3, ![2, 200, 256]⟩
abbrev S1x200x10000 : Shape := ⟨3, ![1, 200, 10000]⟩
abbrev S200x10000 : Shape := ⟨2, ![200, 10000]⟩
abbrev S200x256 : Shape := ⟨2, ![200, 256]⟩
abbrev S1x200x256 : Shape := ⟨3, ![1, 200, 256]⟩

abbrev nBuf : Space → Nat
  | .hbm => 6
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S2x5000x10000, .f32⟩
  | .hbm, ⟨4, _⟩ => ⟨S2x5000x256, .f32⟩
  | .hbm, ⟨5, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S2x200x10000, .f32⟩
  | .local _ .vmem, ⟨3, _⟩ => ⟨S2x200x10000, .f32⟩
  | .local _ .vmem, ⟨4, _⟩ => ⟨S2x200x256, .f32⟩
  | .local _ .vmem, ⟨5, _⟩ => ⟨S2x200x256, .f32⟩
  | .local _ .vmem, ⟨6, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10000x10000_S2x5000x10000 : S10000x10000.ShapeCasts S2x5000x10000
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S2x200x10000_S1x200x10000_0_0_0 : ∀ a, (![0, 0, 0] : Fin 3 → Nat) a + S1x200x10000.size a ≤ S2x200x10000.size a
  h_S1x200x10000 : 0 < S1x200x10000.numel
  shapeCasts_S1x200x10000_S200x10000 : S1x200x10000.ShapeCasts S200x10000
  inb_S2x200x10000_S1x200x10000_1_0_0 : ∀ a, (![1, 0, 0] : Fin 3 → Nat) a + S1x200x10000.size a ≤ S2x200x10000.size a
  inb_S2x200x256_S1x200x256_0_0_0 : ∀ a, (![0, 0, 0] : Fin 3 → Nat) a + S1x200x256.size a ≤ S2x200x256.size a
  h_S1x200x256 : 0 < S1x200x256.numel
  shapeCasts_S1x200x256_S200x256 : S1x200x256.ShapeCasts S200x256
  shapeCasts_S200x256_S1x200x256 : S200x256.ShapeCasts S1x200x256
  inb_S2x200x256_S1x200x256_1_0_0 : ∀ a, (![1, 0, 0] : Fin 3 → Nat) a + S1x200x256.size a ≤ S2x200x256.size a
  shapeCasts_S2x5000x256_S10000x256 : S2x5000x256.ShapeCasts S10000x256
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x200x10000.size a ≤ S2x5000x10000.size a
  hwx0_2 : ∀ i : grid0.Coords, EltTy.bits .f32 = 32 ∨ (Rect.block (s := S2x5000x10000) S2x200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x200x256.size a ≤ S2x5000x256.size a
  hwx0_3 : ∀ i : grid0.Coords, EltTy.bits .f32 = 32 ∨ (Rect.block (s := S2x5000x256) S2x200x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S_, .f32⟩
  | .hbm, ⟨6, _⟩ => ⟨S_, .f32⟩
  | .hbm, ⟨7, _⟩ => ⟨S10000x256, .f32⟩
  | .hbm, ⟨8, _⟩ => ⟨S10000x256, .i1⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Spec.lean ====
/-
  The graph-convolution layer both programs compute, as one function of the three argument arrays, entry by entry.
  With features x : [10000, 256], adjacency w : [10000, 10000] and weights W1 : [256, 256]:
    support k j = ∑ f, x (k, f) · W1 (f, j)                 (the projected features)
    agg i j     = ∑ k, w (i, k) · support k j               (row i of the adjacency applied to column j of the support)
    out (i, j)  = agg i j  if agg i j ≥ 0,  else  c · agg i j   (the leaky rectifier; c is the float pattern of 0.1)
  All sums are sums of extended reals. The kernel and the reference nest the two sums the same way, so no
  rearrangement of sums, and hence no finiteness of the inputs, is needed to join them.
-/
import Idealize.ShloMosaic.Lib.ValueIdx
import Idealize.ShloMosaic.PureOps.Ideal.Laws

noncomputable section

namespace Cert.Gcn

open Idealize.ShloMosaic Idealize.ShloMosaic.ValueIdx

abbrev SX : Shape := ⟨2, ![10000, 256]⟩
abbrev SW : Shape := ⟨2, ![10000, 10000]⟩
abbrev SW1 : Shape := ⟨2, ![256, 256]⟩

/-- The projected features: row `k` of `x` against column `j` of `W1`. -/
def support (x : FVec Ideal SX .f32) (W1 : FVec Ideal SW1 .f32) (k : Fin 10000) (j : Fin 256) : EReal :=
  ∑ f : Fin 256, x (ix2 k f) * W1 (ix2 f j)

/-- The aggregation: row `i` of the adjacency against column `j` of the support. -/
def agg (x : FVec Ideal SX .f32) (w : FVec Ideal SW .f32) (W1 : FVec Ideal SW1 .f32) (i : Fin 10000) (j : Fin 256) : EReal :=
  ∑ k : Fin 10000, w (ix2 i k) * support x W1 k j

/-- The leaky rectifier on one extended real, spelt with the float operations both programs print: keep `a` where
    `a ≥ 0`, else scale it by the constant whose pattern is `0x3DCCCCCD`. -/
def lrelu (a : Ideal .f32) : Ideal .f32 :=
  Scalar.select (FloatOps.cmpf .oge a (Scalar.ofBits (F := Ideal) .f32 0x00000000#32)) a
    (FloatOps.mulf (Scalar.ofBits (F := Ideal) .f32 0x3DCCCCCD#32) a)

/-- The layer's output array. -/
def out (x : FVec Ideal SX .f32) (w : FVec Ideal SW .f32) (W1 : FVec Ideal SW1 .f32) : FVec Ideal SX .f32 :=
  fun i => lrelu (agg x w W1 (i 0) (i 1))

theorem out_ix2 (x : FVec Ideal SX .f32) (w : FVec Ideal SW .f32) (W1 : FVec Ideal SW1 .f32) (i : Fin 10000) (j : Fin 256) :
    out x w W1 (ix2 i j) = lrelu (agg x w W1 i j) := rfl

end Cert.Gcn

end
-- ==== Proof.Payload.lean ====
/-
  The body's three stored values, read at an index at the ideal values.

  At the first grid point the body stores the projected features, support k j = ∑ f, x (k, f) · W1 (f, j): a matrix
  product into a zero accumulator is the plain sum over the contracted coordinate, and a change of float format is the
  identity on extended reals.

  At every grid point the body stores two half blocks. Half `h` of the adjacency block (a [1, 200, 10000] slice seen as a
  [200, 10000] matrix) is multiplied by the stored support, and the leaky rectifier is applied entry by entry:
  entry (0, r, j) of the stored half is lrelu (∑ k, slice (0, r, k) · S (k, j)).
-/
import proofs.«125606_g30846455120381_cont_8to1_b_726_7_alg».proof.Proof.Gen.KernelIdeal.Skeleton
import proofs.«125606_g30846455120381_cont_8to1_b_726_7_alg».proof.Proof.LibRowOps
import proofs.«125606_g30846455120381_cont_8to1_b_726_7_alg».proof.Proof.Spec
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.ValueIdx

/-- The first matrix product, at (k, j): row k of the features against column j of the weights. -/
theorem support_apply (x : Vec Ideal S10000x256 .f32) (W1 : Vec Ideal S256x256 .f32) (k : Fin 10000) (j : Fin 256) :
    k0_pay1 (F := Ideal) x W1 (ix2 k j) = Cert.Gcn.support x W1 k j := by
  unfold k0_pay1
  rw [shapeCast_self]
  exact Cert.LibRowOps.matmul_plain_zero_apply 10000 256 256
    (truncf .bf16 x bitsLt_bf16_f32) (truncf .bf16 W1 bitsLt_bf16_f32) k j

/-- A [1, 200, 10000] slice seen as a [200, 10000] matrix: entry (r, k) is the slice's entry (0, r, k). -/
theorem slice_as_matrix (v : Vec Ideal S1x200x10000 .f32) (r : Fin 200) (k : Fin 10000) :
    shapeCast S200x10000 v shapeCasts_S1x200x10000_S200x10000 (ix2 r k) = v (ix3 (0 : Fin 1) r k) := by
  refine shapeCast_apply v _ (ix2 r k) (ix3 (0 : Fin 1) r k) ?_
  rw [Shape.rowMajor_val_two, Shape.rowMajor_val_three]
  show ((0 : ℕ) * 200 + r.val) * 10000 + k.val = r.val * 10000 + k.val
  omega

/-- A [200, 256] matrix stored as a [1, 200, 256] half block: entry (0, r, j) is the matrix's entry (r, j). -/
theorem matrix_as_half (v : FVec Ideal S200x256 .f32) (r : Fin 200) (j : Fin 256) :
    shapeCast S1x200x256 v shapeCasts_S200x256_S1x200x256 (ix3 (0 : Fin 1) r j) = v (ix2 r j) := by
  refine shapeCast_apply v _ (ix3 (0 : Fin 1) r j) (ix2 r j) ?_
  rw [Shape.rowMajor_val_two, Shape.rowMajor_val_three]
  show r.val * 256 + j.val = ((0 : ℕ) * 200 + r.val) * 256 + j.val
  omega

/-- The adjacency slice times the stored support, at (r, j). -/
theorem rows_times_support (S : FVec Ideal S10000x256 .bf16) (v : Vec Ideal S1x200x10000 .f32) (r : Fin 200) (j : Fin 256) :
    matmul (F := Ideal) dot_S200x10000_S10000x256_S200x256_1_0_0_1_n_n none
        (truncf .bf16 (shapeCast S200x10000 v shapeCasts_S1x200x10000_S200x10000) bitsLt_bf16_f32) S
        (constant S200x256 .f32 0x00000000#32) (ix2 r j)
      = ∑ k : Fin 10000, v (ix3 (0 : Fin 1) r k) * S (ix2 k j) := by
  refine (Cert.LibRowOps.matmul_plain_zero_apply 200 10000 256
    (truncf .bf16 (shapeCast S200x10000 v shapeCasts_S1x200x10000_S200x10000) bitsLt_bf16_f32) S r j).trans ?_
  refine Finset.sum_congr rfl fun k _ => ?_
  exact congrArg (· * S (ix2 k j)) (slice_as_matrix v r k)

/-- The first stored half at (0, r, j). -/
theorem half0_apply (S : FVec Ideal S10000x256 .bf16) (v : Vec Ideal S1x200x10000 .f32) (r : Fin 200) (j : Fin 256) :
    k0_pay2 (F := Ideal) S v (ix3 (0 : Fin 1) r j)
      = Cert.Gcn.lrelu (∑ k : Fin 10000, v (ix3 (0 : Fin 1) r k) * S (ix2 k j)) := by
  unfold k0_pay2
  refine (matrix_as_half _ r j).trans ?_
  show Cert.Gcn.lrelu (matmul (F := Ideal) dot_S200x10000_S10000x256_S200x256_1_0_0_1_n_n none
        (truncf .bf16 (shapeCast S200x10000 v shapeCasts_S1x200x10000_S200x10000) bitsLt_bf16_f32) S
        (constant S200x256 .f32 0x00000000#32) (ix2 r j)) = _
  exact congrArg Cert.Gcn.lrelu (rows_times_support S v r j)

/-- The second stored half at (0, r, j): the same function of its own slice. -/
theorem half1_apply (S : FVec Ideal S10000x256 .bf16) (v : Vec Ideal S1x200x10000 .f32) (r : Fin 200) (j : Fin 256) :
    k0_pay3 (F := Ideal) S v (ix3 (0 : Fin 1) r j)
      = Cert.Gcn.lrelu (∑ k : Fin 10000, v (ix3 (0 : Fin 1) r k) * S (ix2 k j)) := by
  unfold k0_pay3
  refine (matrix_as_half _ r j).trans ?_
  show Cert.Gcn.lrelu (matmul (F := Ideal) dot_S200x10000_S10000x256_S200x256_1_0_0_1_n_n none
        (truncf .bf16 (shapeCast S200x10000 v shapeCasts_S1x200x10000_S200x10000) bitsLt_bf16_f32) S
        (constant S200x256 .f32 0x00000000#32) (ix2 r j)) = _
  exact congrArg Cert.Gcn.lrelu (rows_times_support S v r j)

end Cert.KernelIdeal.Pay

end
-- ==== Proof.Pieces.lean ====
/-
  What the body leaves behind, case by case.

  The first grid point (the case that fills the scratch) leaves in the scratch the projected features of the two input
  blocks it was given. Every grid point leaves in the output's staging block two halves: half `h` (h = 0, 1) holds, at
  row r and column j, the leaky rectifier of ∑ k, W (h, r, k) · S (k, j), where W is the adjacency block of the point
  and S is what the scratch holds when the halves are computed: the features just projected at the first point, the
  scratch's earlier contents at the others.
-/
import proofs.«125606_g30846455120381_cont_8to1_b_726_7_alg».proof.Proof.Gen.KernelIdeal.Frame
import proofs.«125606_g30846455120381_cont_8to1_b_726_7_alg».proof.Proof.Payload

set_option maxRecDepth 16384

noncomputable section

namespace Cert.KernelIdeal.Pieces

open Cert.KernelIdeal Cert.KernelIdeal.Gen Idealize.ShloMosaic Idealize.ShloMosaic.TcCoe Idealize.ShloMosaic.Tactic
open Idealize.ShloMosaic.ValueIdx Idealize.SL Idealize.SL.Sem

theorem off2 : (![0, 0] : Fin 2 → Nat) = fun _ => 0 :=
  funext fun a => by match a with | ⟨0, _⟩ => rfl | ⟨1, _⟩ => rfl

/-- Row r, column j of half h of an output block, from the adjacency block W and the support S. -/
def blockOut (S : FVec Ideal S10000x256 .bf16) (W : Vec Ideal S2x200x10000 .f32) : Vec Ideal S2x200x256 .f32 :=
  fun y => Cert.Gcn.lrelu (∑ k : Fin 10000, W (ix3 (y 0 : Fin 2) (y 1 : Fin 200) k) * S (ix2 k (y 2 : Fin 256)))

theorem blockOut_ix3 (S : FVec Ideal S10000x256 .bf16) (W : Vec Ideal S2x200x10000 .f32) (h : Fin 2) (r : Fin 200) (j : Fin 256) :
    blockOut S W (ix3 h r j) = Cert.Gcn.lrelu (∑ k : Fin 10000, W (ix3 h r k) * S (ix2 k j)) := rfl

/-! ## The scratch after the first point (any float instance) -/

section AnyF
variable {F : FTy → Type} [FloatOps F]

theorem scratch_first (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S2x200x10000 .f32) (harg3 : arg3.IsWhole) (arg4 : Memref sig .tc .vmem S2x200x256 .f32) (harg4 : arg4.IsWhole) (arg5 : Memref sig .tc .vmem S10000x256 .bf16) (harg5 : arg5.IsWhole) (hc0 : cond0_0 i)
    (x0 : Vec F S10000x256 .f32) (x1 : Vec F S256x256 .f32) (x2 : Vec F S2x200x10000 .f32) :
    sout0_A_0 c i arg1 harg1 arg2 harg2 arg3 harg3 arg4 harg4 arg5 harg5 hc0 x0 x1 x2 = k0_pay1 x0 x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero off2]
  simp only [View.readAt_eq_ld, harg1.read_unread, harg2.read_unread, View.ld_unit_zero (S := S10000x256) off2,
    View.ld_unit_zero (S := S256x256) off2]

end AnyF

/-! ## The two halves of an output block, at the ideal values -/

/-- The slice of the adjacency block a half reads, placed in the block: (0, r, k) of half 1 is (1, r, k). -/
theorem in_half1 (inb) (r : Fin 200) (k : Fin 10000) :
    (Rect.unit (s := S2x200x10000) ![1, 0, 0] S1x200x10000.size inb).idx (ix3 (0 : Fin 1) r k) = ix3 (1 : Fin 2) r k :=
  funext fun a => Fin.ext (by
    match a with
    | ⟨0, _⟩ => rfl
    | ⟨1, _⟩ => show 0 + 1 * r.val = r.val; omega
    | ⟨2, _⟩ => show 0 + 1 * k.val = k.val; omega)
theorem in_half0 (inb) (r : Fin 200) (k : Fin 10000) :
    (Rect.unit (s := S2x200x10000) ![0, 0, 0] S1x200x10000.size inb).idx (ix3 (0 : Fin 1) r k) = ix3 (0 : Fin 2) r k :=
  funext fun a => Fin.ext (by
    match a with
    | ⟨0, _⟩ => rfl
    | ⟨1, _⟩ => show 0 + 1 * r.val = r.val; omega
    | ⟨2, _⟩ => show 0 + 1 * k.val = k.val; omega)
/-- The same for the stored halves of the output block. -/
theorem out_half1 (inb) (r : Fin 200) (j : Fin 256) :
    (Rect.unit (s := S2x200x256) ![1, 0, 0] S1x200x256.size inb).emb (ix3 (0 : Fin 1) r j) = ix3 (1 : Fin 2) r j :=
  funext fun a => Fin.ext (by
    match a with
    | ⟨0, _⟩ => rfl
    | ⟨1, _⟩ => show 0 + 1 * r.val = r.val; omega
    | ⟨2, _⟩ => show 0 + 1 * j.val = j.val; omega)
theorem out_half0 (inb) (r : Fin 200) (j : Fin 256) :
    (Rect.unit (s := S2x200x256) ![0, 0, 0] S1x200x256.size inb).emb (ix3 (0 : Fin 1) r j) = ix3 (0 : Fin 2) r j :=
  funext fun a => Fin.ext (by
    match a with
    | ⟨0, _⟩ => rfl
    | ⟨1, _⟩ => show 0 + 1 * r.val = r.val; omega
    | ⟨2, _⟩ => show 0 + 1 * j.val = j.val; omega)

/-- The two stored halves, read back as one block: `blockOut`. -/
theorem two_halves (S : FVec Ideal S10000x256 .bf16) (W : Vec Ideal S2x200x10000 .f32) (i1 i0 o1 o0) (y : S2x200x256.Idx)
    (hy : ∃ p ∈ ([⟨Rect.unit (s := S2x200x256) ![1, 0, 0] S1x200x256.size o1,
            k0_pay3 (F := Ideal) S (View.ld W (Rect.unit (s := S2x200x10000) ![1, 0, 0] S1x200x10000.size i1))⟩,
          ⟨Rect.unit (s := S2x200x256) ![0, 0, 0] S1x200x256.size o0,
            k0_pay2 (F := Ideal) S (View.ld W (Rect.unit (s := S2x200x10000) ![0, 0, 0] S1x200x10000.size i0))⟩] :
          List (View.Piece (Elt Ideal) S2x200x256 .f32)), y ∈ p.1.set) :
    View.canon ([⟨Rect.unit (s := S2x200x256) ![1, 0, 0] S1x200x256.size o1,
            k0_pay3 (F := Ideal) S (View.ld W (Rect.unit (s := S2x200x10000) ![1, 0, 0] S1x200x10000.size i1))⟩,
          ⟨Rect.unit (s := S2x200x256) ![0, 0, 0] S1x200x256.size o0,
            k0_pay2 (F := Ideal) S (View.ld W (Rect.unit (s := S2x200x10000) ![0, 0, 0] S1x200x10000.size i0))⟩] :
          List (View.Piece (Elt Ideal) S2x200x256 .f32)) y = blockOut S W y := by
  refine View.canon_apply_of_pieces (blockOut S W) _ ?_ y hy
  intro p hp x
  simp only [List.mem_cons, List.not_mem_nil, or_false] at hp
  rcases hp with rfl | rfl
  · obtain ⟨a, r, j, rfl⟩ : ∃ (a : Fin 1) (r : Fin 200) (j : Fin 256), x = ix3 a r j := ⟨x 0, x 1, x 2, eq_ix3 x⟩
    obtain rfl : a = 0 := Subsingleton.elim _ _
    refine (Pay.half1_apply S _ r j).trans ?_
    rw [out_half1 o1 r j, blockOut_ix3]
    refine congrArg Cert.Gcn.lrelu (Finset.sum_congr rfl fun k _ => ?_)
    exact congrArg (fun z => W z * S (ix2 k j)) (in_half1 i1 r k)
  · obtain ⟨a, r, j, rfl⟩ : ∃ (a : Fin 1) (r : Fin 200) (j : Fin 256), x = ix3 a r j := ⟨x 0, x 1, x 2, eq_ix3 x⟩
    obtain rfl : a = 0 := Subsingleton.elim _ _
    refine (Pay.half0_apply S _ r j).trans ?_
    rw [out_half0 o0 r j, blockOut_ix3]
    refine congrArg Cert.Gcn.lrelu (Finset.sum_congr rfl fun k _ => ?_)
    exact congrArg (fun z => W z * S (ix2 k j)) (in_half0 i0 r k)

/-- A point that finds the support already in the scratch: its output block is `blockOut` of the scratch's contents and
    the point's adjacency block. -/
theorem out_later (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S2x200x10000 .f32) (harg3 : arg3.IsWhole) (arg4 : Memref sig .tc .vmem S2x200x256 .f32) (harg4 : arg4.IsWhole) (arg5 : Memref sig .tc .vmem S10000x256 .bf16) (harg5 : arg5.IsWhole) (hc0 : ¬cond0_0 i)
    (x0 : Vec Ideal S10000x256 .f32) (x1 : Vec Ideal S256x256 .f32) (x2 : Vec Ideal S2x200x10000 .f32) (xs0 : Vec Ideal S10000x256 .bf16) :
    out0_B_3 (F := Ideal) c i arg1 harg1 arg2 harg2 arg3 harg3 arg4 harg4 arg5 harg5 hc0 x0 x1 x2 xs0 = blockOut xs0 x2 := by
  funext y
  have hcov := cover0_B_3 (F := Ideal) c i arg1 harg1 arg2 harg2 arg3 harg3 arg4 harg4 arg5 harg5 hc0 x0 x1 x2 xs0 y
  unfold out0_B_3
  rw [View.read_writes_eq_canon _ _ _ (cover0_B_3 c i arg1 harg1 arg2 harg2 arg3 harg3 arg4 harg4 arg5 harg5 hc0 x0 x1 x2 xs0)]
  revert hcov
  unfold kernelRun0_B
  dsimp only
  sl_unfold_words
  simp only [View.readAt_eq_ld, harg3.read_unread, harg5.read_unread, View.ld_unit_zero (S := S10000x256) off2]
  intro hcov
  exact two_halves xs0 x2 _ _ _ _ y hcov

/-- The first point: its output block is `blockOut` of the features it has just projected and its adjacency block. -/
theorem out_first (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S2x200x10000 .f32) (harg3 : arg3.IsWhole) (arg4 : Memref sig .tc .vmem S2x200x256 .f32) (harg4 : arg4.IsWhole) (arg5 : Memref sig .tc .vmem S10000x256 .bf16) (harg5 : arg5.IsWhole) (hc0 : cond0_0 i)
    (x0 : Vec Ideal S10000x256 .f32) (x1 : Vec Ideal S256x256 .f32) (x2 : Vec Ideal S2x200x10000 .f32) :
    out0_A_3 (F := Ideal) c i arg1 harg1 arg2 harg2 arg3 harg3 arg4 harg4 arg5 harg5 hc0 x0 x1 x2 = blockOut (k0_pay1 (F := Ideal) x0 x1) x2 := by
  funext y
  have hcov := cover0_A_3 (F := Ideal) c i arg1 harg1 arg2 harg2 arg3 harg3 arg4 harg4 arg5 harg5 hc0 x0 x1 x2 y
  unfold out0_A_3
  rw [View.read_writes_eq_canon _ _ _ (cover0_A_3 c i arg1 harg1 arg2 harg2 arg3 harg3 arg4 harg4 arg5 harg5 hc0 x0 x1 x2)]
  revert hcov
  unfold kernelRun0_A
  dsimp only
  sl_unfold_words
  simp only [View.readAt_eq_ld, harg1.read_unread, harg2.read_unread, harg3.read_unread,
    View.readCov_unit_zero (S := S10000x256) _ off2, View.ld_unit_zero (S := S10000x256) off2,
    View.ld_unit_zero (S := S256x256) off2]
  intro hcov
  exact two_halves (k0_pay1 (F := Ideal) x0 x1) x2 _ _ _ _ y hcov

end Cert.KernelIdeal.Pieces

end
-- ==== Proof.Blocks.lean ====
/-
  What the grid points find and leave, over the whole arrays.

  The feature and weight windows do not move: at every grid point their blocks are the whole arrays x and W1. The
  adjacency window moves along the second axis of the reshaped adjacency W3 : [2, 5000, 10000], 200 rows at a time:
  entry (h, r, k) of the block of point t is W3 (h, 200 t + r, k), and W3 (h, r, k) = w (5000 h + r, k).

  The scratch is filled at the first point with the projected features S = x · W1 and is not written again, so after
  every point it holds S (induction over the points). Hence every point's output block, at (h, r, j), is the leaky
  rectifier of ∑ k, W3 (h, 200 t + r, k) · S (k, j).
-/
import proofs.«125606_g30846455120381_cont_8to1_b_726_7_alg».proof.Proof.Pieces
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The arrays as the region finds them, at their literal types. -/
abbrev xarr (c : Dev nD) : Vec Ideal S10000x256 .f32 := V m c main_arg0
abbrev w1arr (c : Dev nD) : Vec Ideal S256x256 .f32 := V m c main_arg2
abbrev w3arr (c : Dev nD) : Vec Ideal S2x5000x10000 .f32 := V m c main_v0
/-- The windows' blocks at a point, at their literal types. -/
abbrev xblk (c : Dev nD) (t : Fin cfg0.N) : Vec Ideal S10000x256 .f32 := iblk m c 0 t
abbrev w1blk (c : Dev nD) (t : Fin cfg0.N) : Vec Ideal S256x256 .f32 := iblk m c 1 t
abbrev wblk (c : Dev nD) (t : Fin cfg0.N) : Vec Ideal S2x200x10000 .f32 := iblk m c 2 t

/-- The projected features of the whole arrays: what the scratch holds from the first point on. -/
def supp (c : Dev nD) : FVec Ideal S10000x256 .bf16 := k0_pay1 (F := Ideal) (xarr m c) (w1arr m c)

/-- Where the windows' blocks sit, decided over the grid: the first two windows and the outer axes of the last two do
    not move; the adjacency and output windows move with the point along axis 1. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- The feature window's block is the feature array. -/
theorem xblk_eq (c : Dev nD) (t : Fin cfg0.N) : xblk m c t = xarr m c := by
  obtain ⟨e0, e1, -⟩ := idx_facts t
  funext j
  show iblk m c 0 t j = V m c main_arg0 j
  unfold iblk
  rw [View.read_apply]
  show V m c main_arg0 (((cfg0.win 0).blk t).view.emb j) = V m c main_arg0 j
  refine congrArg (V m c main_arg0) (funext fun a => Fin.ext ?_)
  match a with
  | ⟨0, _⟩ => show win0_0.index t (0 : Fin 2) * 10000 + 1 * (j 0).val = (j 0).val; rw [e0]; omega
  | ⟨1, _⟩ => show win0_0.index t (1 : Fin 2) * 256 + 1 * (j 1).val = (j 1).val; rw [e1]; omega

/-- The weight window's block is the weight array. -/
theorem w1blk_eq (c : Dev nD) (t : Fin cfg0.N) : w1blk m c t = w1arr m c := by
  obtain ⟨-, -, e0, e1, -⟩ := idx_facts t
  funext j
  show iblk m c 1 t j = V m c main_arg2 j
  unfold iblk
  rw [View.read_apply]
  show V m c main_arg2 (((cfg0.win 1).blk t).view.emb j) = V m c main_arg2 j
  refine congrArg (V m c main_arg2) (funext fun a => Fin.ext ?_)
  match a with
  | ⟨0, _⟩ => show win0_1.index t (0 : Fin 2) * 256 + 1 * (j 0).val = (j 0).val; rw [e0]; omega
  | ⟨1, _⟩ => show win0_1.index t (1 : Fin 2) * 256 + 1 * (j 1).val = (j 1).val; rw [e1]; omega

/-- The adjacency window's block at point t: rows 200 t … 200 t + 199 of both halves. -/
theorem wblk_apply (c : Dev nD) (t : Fin cfg0.N) (h : Fin 2) (r : Fin 200) (k : Fin 10000)
    (h' : Fin 2) (r' : Fin 5000) (hh : h'.val = h.val) (hr : r'.val = t.val * 200 + r.val) :
    wblk m c t (ix3 h r k) = w3arr m c (ix3 h' r' k) := by
  obtain ⟨-, -, -, -, e0, e1, e2, -⟩ := idx_facts t
  show iblk m c 2 t (ix3 h r k) = V m c main_v0 (ix3 h' r' k)
  unfold iblk
  rw [View.read_apply]
  show V m c main_v0 (((cfg0.win 2).blk t).view.emb (ix3 h r k)) = V m c main_v0 (ix3 h' r' k)
  refine congrArg (V m c main_v0) (funext fun a => Fin.ext ?_)
  match a with
  | ⟨0, _⟩ => show win0_2.index t (0 : Fin 3) * 2 + 1 * h.val = h'.val; rw [e0]; omega
  | ⟨1, _⟩ => show win0_2.index t (1 : Fin 3) * 200 + 1 * r.val = r'.val; rw [e1]; omega
  | ⟨2, _⟩ => show win0_2.index t (2 : Fin 3) * 10000 + 1 * k.val = k.val; rw [e2]; omega

/-- The reshaped adjacency the region finds: the host reshape of the argument. -/
theorem w3arr_eq (c : Dev nD) :
    w3arr m c = shapeCast S2x5000x10000 (m ((c : Thread nD τ).loc main_arg1)) shapeCasts_S10000x10000_S2x5000x10000 := by
  show StableHlo.after hostOps0 (fun b => m (c, b)) (Proc.devRef .tc main_v0) = _
  after_results
  rfl

/-- Entry (h, r, k) of the reshaped adjacency is entry (5000 h + r, k) of the adjacency. -/
theorem w3arr_apply (c : Dev nD) (h : Fin 2) (r : Fin 5000) (k : Fin 10000) (i : Fin 10000) (hi : i.val = h.val * 5000 + r.val) :
    w3arr m c (ix3 h r k) = m ((c : Thread nD τ).loc main_arg1) (ix2 i k) := by
  rw [w3arr_eq]
  refine shapeCast_apply _ _ (ix3 h r k) (ix2 i k) ?_
  rw [Shape.rowMajor_val_two, Shape.rowMajor_val_three]
  show i.val * 10000 + k.val = (h.val * 5000 + r.val) * 10000 + k.val
  rw [hi]

/-! ## The scratch holds the projected features after every point -/

theorem scratch_eq (c : Dev nD) : ∀ (n : ℕ) (hn : n < cfg0.N), (outsAt0 m c n hn).2 = supp m c
  | 0, hn => by
    rw [outsAt0_A m c ⟨0, hn⟩ rfl]
    dsimp only
    refine (Pieces.scratch_first (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _)
      ((hcond0_0 ⟨0, hn⟩).mpr rfl) (xblk m c ⟨0, hn⟩) (w1blk m c ⟨0, hn⟩) (wblk m c ⟨0, hn⟩)).trans ?_
    unfold supp
    rw [xblk_eq, w1blk_eq]
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact scratch_eq c n (Nat.lt_of_succ_lt hn)

/-! ## Every point's output block -/

theorem outblk_eq (c : Dev nD) (t : Fin cfg0.N) :
    (outsAt0 m c t.val t.isLt).1 = Pieces.blockOut (supp m c) (wblk m c t) := by
  by_cases h0 : t.val % 25 = 0
  · rw [outsAt0_A m c t h0]
    dsimp only
    refine (Pieces.out_first c (grid0.coords t) (ms0_0 t) (hs0_0 t) (ms0_1 t) (hs0_1 t) (ms0_2 t) (hs0_2 t) (ms0_3 t) (hs0_3 t)
      scM0_0 (Memref.isWhole_whole _) ((hcond0_0 t).mpr h0) (xblk m c t) (w1blk m c t) (wblk m c t)).trans ?_
    unfold supp
    rw [xblk_eq, w1blk_eq]
  · rw [outsAt0_B m c t h0]
    dsimp only
    refine (Pieces.out_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (xblk m c t) (w1blk m c t) (wblk m c t)
      (outsAt0 m c (t.val - 1) (Nat.lt_of_le_of_lt (Nat.sub_le _ _) t.isLt)).2).trans ?_
    rw [scratch_eq m c (t.val - 1) _]

end Cert.KernelIdeal.Blocks

end
-- ==== Proof.Final.lean ====
/-
  The kernel's result array.

  Point t writes back its output block into rows 200 t … 200 t + 199 of both halves of the [2, 5000, 256] result of the
  region, and the 25 points' blocks cover that array, so it ends holding, at (h, r, j), the leaky rectifier of
  ∑ k, W3 (h, r, k) · S (k, j). The host then reshapes it to [10000, 256]: entry (i, j) is entry (i / 5000, i % 5000, j),
  and W3 (i / 5000, i % 5000, k) = w (i, k). With S (k, j) = ∑ f, x (k, f) · W1 (f, j) this is the layer's output.
-/
import proofs.«125606_g30846455120381_cont_8to1_b_726_7_alg».proof.Proof.Blocks

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the region's result array ends holding. -/
def outArr (c : Dev nD) : Vec Ideal S2x5000x256 .f32 :=
  fun y => Cert.Gcn.lrelu (∑ k : Fin 10000,
    Blocks.w3arr m c (ix3 (y 0 : Fin 2) (y 1 : Fin 5000) k) * Blocks.supp m c (ix2 k (y 2 : Fin 256)))

theorem outArr_ix3 (c : Dev nD) (h : Fin 2) (r : Fin 5000) (j : Fin 256) :
    outArr m c (ix3 h r j)
      = Cert.Gcn.lrelu (∑ k : Fin 10000, Blocks.w3arr m c (ix3 h r k) * Blocks.supp m c (ix2 k j)) := rfl

/-- What point t writes back is block t of that array. -/
theorem flushed_eq (c : Dev nD) (t : Fin cfg0.N) :
    (dats m 0 c).flushed 3 t = ((cfg0.win 3).blk t).view.read (Elt Ideal) (outArr m c) := by
  obtain ⟨-, -, -, -, -, -, -, e0, e1, e2⟩ := Blocks.idx_facts t
  show (cfg0.win 3).cut (grid0.coords t) ((dats m 0 c).after 3 t) = _
  rw [after0_3, Blocks.outblk_eq]
  funext y
  rw [View.read_apply]
  obtain ⟨h, r, j, hy⟩ : ∃ (h : Fin 2) (r : Fin 200) (j : Fin 256), (cfg0.win 3).xinj (grid0.coords t) y = ix3 h r j :=
    ⟨_, _, _, eq_ix3 _⟩
  have y0 : (y 0).val = h.val := congrArg (fun z : S2x200x256.Idx => (z 0).val) hy
  have y1 : (y 1).val = r.val := congrArg (fun z : S2x200x256.Idx => (z 1).val) hy
  have y2 : (y 2).val = j.val := congrArg (fun z : S2x200x256.Idx => (z 2).val) hy
  show Pieces.blockOut (Blocks.supp m c) (Blocks.wblk m c t) ((cfg0.win 3).xinj (grid0.coords t) y)
    = outArr m c (((cfg0.win 3).blk t).view.emb y)
  rw [hy, Pieces.blockOut_ix3]
  have z0 : ((((cfg0.win 3).blk t).view.emb y) 0).val = h.val := by
    show win0_3.index t (0 : Fin 3) * 2 + 1 * (y 0).val = h.val; rw [e0, y0]; omega
  have z1 : ((((cfg0.win 3).blk t).view.emb y) 1).val = t.val * 200 + r.val := by
    show win0_3.index t (1 : Fin 3) * 200 + 1 * (y 1).val = t.val * 200 + r.val; rw [e1, y1]; omega
  have z2 : ((((cfg0.win 3).blk t).view.emb y) 2 : Fin 256) = j := Fin.ext (by
    show win0_3.index t (2 : Fin 3) * 256 + 1 * (y 2).val = j.val; rw [e2, y2]; omega)
  unfold outArr
  dsimp only
  rw [z2]
  refine congrArg Cert.Gcn.lrelu (Finset.sum_congr rfl fun k _ => ?_)
  exact congrArg (· * Blocks.supp m c (ix2 k j)) (Blocks.wblk_apply m c t h r k _ _ z0 z1)

/-- An index of the result array is in point t's block iff each coordinate is in the block's range on its axis. -/
theorem mem_blk (t : Fin cfg0.N) (i : S2x5000x256.Idx) :
    i ∈ ((cfg0.win 3).blk t).view.set ↔ ∀ a : Fin 3, win0_3.index t a * S2x200x256.size a ≤ (i a).val
      ∧ (i a).val < win0_3.index t a * S2x200x256.size a + S2x200x256.size a := by
  show i ∈ ((View.whole main_v1).slice (win0_3.rect t)).set ↔ _
  rw [View.set_slice_whole, Rect.mem_set_unit]
  exact Iff.rfl

/-- Row r of either half is in the block of point r / 200. -/
theorem cover (i : S2x5000x256.Idx) :
    ∃ t : Fin cfg0.N, (cfg0.win 3).flush t = true ∧ i ∈ ((cfg0.win 3).blk t).view.set := by
  have hN : cfg0.N = 25 := N_0
  have hi0 : (i 0).val < 2 := (i 0).isLt
  have hi1 : (i 1).val < 5000 := (i 1).isLt
  have hi2 : (i 2).val < 256 := (i 2).isLt
  refine ⟨⟨(i 1).val / 200, by omega⟩, flush0_3 _, ?_⟩
  obtain ⟨-, -, -, -, -, -, -, e0, e1, e2⟩ := Blocks.idx_facts ⟨(i 1).val / 200, by omega⟩
  rw [mem_blk]
  intro a
  match a with
  | ⟨0, _⟩ =>
    show win0_3.index _ (0 : Fin 3) * 2 ≤ (i 0).val ∧ (i 0).val < win0_3.index _ (0 : Fin 3) * 2 + 2
    rw [e0]; omega
  | ⟨1, _⟩ =>
    show win0_3.index _ (1 : Fin 3) * 200 ≤ (i 1).val ∧ (i 1).val < win0_3.index _ (1 : Fin 3) * 200 + 200
    rw [e1]; dsimp only; omega
  | ⟨2, _⟩ =>
    show win0_3.index _ (2 : Fin 3) * 256 ≤ (i 2).val ∧ (i 2).val < win0_3.index _ (2 : Fin 3) * 256 + 256
    rw [e2]; omega

/-- The region's result array after the run. -/
theorem final (c : Dev nD) : (dats m 0 c).arrAt 3 cfg0.N = outArr m c :=
  (dats m 0 c).arrAt_eq_of_cover 3 (outArr m c) (fun t _ => flushed_eq m c t) cover

/-- The program's result: the host reshape of that array. -/
theorem tail_eq (c : Dev nD) :
    Pipeline.afterTail₀ cfgs (dats m) 0 (V0 m) [hostOps1] c main_v2
      = shapeCast S10000x256 (outArr m c) shapeCasts_S2x5000x256_S10000x256 := by
  unfold Pipeline.afterTail₀
  show StableHlo.after hostOps1 _ (Proc.devRef .tc main_v2) = _
  after_results
  exact congrArg (fun z => shapeCast S10000x256 z shapeCasts_S2x5000x256_S10000x256)
    ((Pipeline.withArrays_arr spec0 launch0.win.arr_inj c _ _ 3).trans (final m c))

/-- The adjacency argument at its literal type. -/
abbrev warr (c : Dev nD) : FVec Ideal S10000x10000 .f32 := m ((c : Thread nD τ).loc main_arg1)

/-- Entry (i, j) of the program's result is the layer's output there. -/
theorem result_apply (c : Dev nD) (i : Fin 10000) (j : Fin 256) :
    shapeCast S10000x256 (outArr m c) shapeCasts_S2x5000x256_S10000x256 (ix2 i j)
      = Cert.Gcn.out (m ((c : Thread nD τ).loc main_arg0)) (m ((c : Thread nD τ).loc main_arg1))
          (m ((c : Thread nD τ).loc main_arg2)) (ix2 i j) := by
  have hi : i.val < 10000 := i.isLt
  refine (shapeCast_apply (outArr m c) _ (ix2 i j)
    (ix3 (⟨i.val / 5000, by omega⟩ : Fin 2) (⟨i.val % 5000, Nat.mod_lt _ (by norm_num)⟩ : Fin 5000) j) ?_).trans ?_
  · rw [Shape.rowMajor_val_two, Shape.rowMajor_val_three]
    show (i.val / 5000 * 5000 + i.val % 5000) * 256 + j.val = i.val * 256 + j.val
    rw [Nat.div_add_mod' i.val 5000]
  · rw [outArr_ix3, Cert.Gcn.out_ix2]
    unfold Cert.Gcn.agg
    refine congrArg Cert.Gcn.lrelu (Finset.sum_congr rfl fun k _ => ?_)
    rw [Blocks.w3arr_apply m c _ _ k i (by show i.val = i.val / 5000 * 5000 + i.val % 5000; rw [Nat.div_add_mod' i.val 5000])]
    refine congrArg (fun z : EReal => warr m c (ix2 i k) * z) ?_
    unfold Blocks.supp
    rw [Pay.support_apply]
    show Cert.Gcn.support (V m c main_arg0) (V m c main_arg2) k j = _
    rw [V_main_arg0, V_main_arg2]

/-- The kernel's run, read: the result buffer at the layer's output of the argument arrays, the arguments unchanged. -/
theorem run : θ_run defs (onTc (τ := τ) (main (F := Ideal))) ⟨m, fun _ => 0, ρ⟩ fun r => ∀ c : Dev nD,
      r.2.mem ((c.tc : Thread nD τ).loc main_v2)
          = Cert.Gcn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans ((tail_eq m c).trans (by
        funext i
        obtain ⟨p, q, rfl⟩ : ∃ (p : Fin 10000) (q : Fin 256), i = ix2 p q := ⟨i 0, i 1, eq_ix2 i⟩
        exact result_apply m c p q)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Final

end
-- ==== Proof.RefRun.lean ====
/-
  The reference program's run, read back. Its @main is a straight line of ten host operations once the two outlined
  functions (the rectifier and the select it calls) are unfolded at their calls: the two matrix products, the slope
  constant, and the rectifier's seven lines (a zero, its spread over the array, the comparison a ≥ 0, the slope passed
  through, its spread, the product slope · a, the select). Every weakly fair execution ends with the result buffer at
  the composed term of the argument arrays and the arguments unchanged.
-/
import proofs.«125606_g30846455120381_cont_8to1_b_726_7_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ten operations, in order, the callees' lines at their call sites over the calls' buffers. -/
abbrev ops : List (HloOp τ sig (Elt F)) :=
  [ binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    nullary main_cst (constant S_ .f32 0x3DCCCCCD#32),
    TRef.nullary main_call0.cst (constant S_ .f32 0x00000000#32),
    TRef.unary main_call0.cst main_call0.v0 (broadcastInDim S10000x256 ![] bcast_S_S10000x256),
    TRef.binary (.of main_v1) main_call0.v0 main_call0.v1 (cmpf .oge),
    TRef.unary (.of main_cst) main_call0.v2 id,
    TRef.unary main_call0.v2 main_call0.v3 (broadcastInDim S10000x256 ![] bcast_S_S10000x256),
    TRef.binary main_call0.v3 (.of main_v1) main_call0.v4 mulf,
    TRef.ternary main_call0.v1 (.of main_v1) main_call0.v4 main_call0.call0.v0 select ]

/-- @main is that straight line: the two functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., nullary_bufs_sub .., unary_bufs_sub .., binary_bufs_sub ..,
    unary_bufs_sub .., unary_bufs_sub .., binary_bufs_sub .., ternary_bufs_sub ..⟩

/-- The result as one term of the three argument arrays: with a = w · (x · W1) (two matrix products),
    select (a ≥ 0) a (slope · a), the zero and the slope spread over the array. -/
def result (x : (⟨S10000x256, .f32⟩ : BufTy).Contents (Elt F)) (w : (⟨S10000x10000, .f32⟩ : BufTy).Contents (Elt F))
    (W1 : (⟨S256x256, .f32⟩ : BufTy).Contents (Elt F)) : (⟨S10000x256, .f32⟩ : BufTy).Contents (Elt F) :=
  select
    (cmpf .oge
      (Host.dotGeneral dot_S10000x10000_S10000x256_S10000x256_1_0_0_1_n_n none w
        (Host.dotGeneral dot_S10000x256_S256x256_S10000x256_1_0_0_1_n_n none x W1))
      (broadcastInDim S10000x256 ![] bcast_S_S10000x256 (constant S_ .f32 0x00000000#32)))
    (Host.dotGeneral dot_S10000x10000_S10000x256_S10000x256_1_0_0_1_n_n none w
      (Host.dotGeneral dot_S10000x256_S256x256_S10000x256_1_0_0_1_n_n none x W1))
    (mulf (broadcastInDim S10000x256 ![] bcast_S_S10000x256 (constant S_ .f32 0x3DCCCCCD#32))
      (Host.dotGeneral dot_S10000x10000_S10000x256_S10000x256_1_0_0_1_n_n none w
        (Host.dotGeneral dot_S10000x256_S256x256_S10000x256_1_0_0_1_n_n none x W1)))

/-- The fold of the ten operations, read at the result buffer, is that term of the launch contents. -/
theorem out_eq (V : Valuation τ sig (Elt F)) :
    after ops V (main_v2 : DevRef τ sig)
      = result (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- On every device, from any memory with zero counters: every weakly fair execution of @main terminates with the
    result buffer at `result` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«125606_g30846455120381_cont_8to1_b_726_7_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.RefValue.lean ====
/-
  The reference's result term is the layer's output, entry by entry: its two host matrix products are the plain sums
  over the contracted coordinate, nested as in the specification, and its rectifier lines are the rectifier applied to
  each entry (the spread zero and slope read the constants everywhere).
-/
import proofs.«125606_g30846455120381_cont_8to1_b_726_7_alg».proof.Proof.RefRun
import proofs.«125606_g30846455120381_cont_8to1_b_726_7_alg».proof.Proof.LibHostRows
import proofs.«125606_g30846455120381_cont_8to1_b_726_7_alg».proof.Proof.Spec

noncomputable section

namespace Cert.ReferenceIdeal.RefValue

open Cert.ReferenceIdeal Cert.ReferenceIdeal.Gen Idealize.ShloMosaic Idealize.ShloMosaic.ValueIdx

/-- The aggregation on the host, at (p, q). -/
theorem agg_apply (x : FVec Ideal S10000x256 .f32) (w : FVec Ideal S10000x10000 .f32) (W1 : FVec Ideal S256x256 .f32)
    (p : Fin 10000) (q : Fin 256) :
    Host.dotGeneral (F := Ideal) dot_S10000x10000_S10000x256_S10000x256_1_0_0_1_n_n none w
        (Host.dotGeneral (F := Ideal) dot_S10000x256_S256x256_S10000x256_1_0_0_1_n_n none x W1) (ix2 p q)
      = Cert.Gcn.agg x w W1 p q := by
  refine (Cert.LibHostRows.dotGeneral_plain_apply 10000 10000 256 _ w
    (Host.dotGeneral (F := Ideal) dot_S10000x256_S256x256_S10000x256_1_0_0_1_n_n none x W1) p q).trans ?_
  unfold Cert.Gcn.agg
  refine Finset.sum_congr rfl fun k _ => ?_
  exact congrArg (w (ix2 p k) * ·) (Cert.LibHostRows.dotGeneral_plain_apply 10000 256 256 _ x W1 k q)

/-- The reference's result is the layer's output. -/
theorem result_eq (x : FVec Ideal S10000x256 .f32) (w : FVec Ideal S10000x10000 .f32) (W1 : FVec Ideal S256x256 .f32) :
    RefRun.result (F := Ideal) x w W1 = Cert.Gcn.out x w W1 := by
  funext i
  obtain ⟨p, q, rfl⟩ : ∃ (p : Fin 10000) (q : Fin 256), i = ix2 p q := ⟨i 0, i 1, eq_ix2 i⟩
  rw [Cert.Gcn.out_ix2]
  unfold RefRun.result
  show Cert.Gcn.lrelu (Host.dotGeneral (F := Ideal) dot_S10000x10000_S10000x256_S10000x256_1_0_0_1_n_n none w
        (Host.dotGeneral (F := Ideal) dot_S10000x256_S256x256_S10000x256_1_0_0_1_n_n none x W1) (ix2 p q)) = _
  exact congrArg Cert.Gcn.lrelu (agg_apply x w W1 p q)

end Cert.ReferenceIdeal.RefValue

end
-- ==== Proof.lean ====
/-
  A graph-convolution layer, out = lrelu (w · (x · W1)), computed by one fused kernel against its plain reference.

  The kernel walks 25 grid points. At the first it projects the features, S = x · W1 (a [10000, 256] by [256, 256]
  product), into a scratch buffer that stays in place for the rest of the walk. At every point it takes 200 rows from
  each half of the adjacency (seen as [2, 5000, 10000]), multiplies each half-block by S, applies the leaky rectifier
  a ↦ a if a ≥ 0 else c · a (c the float pattern of 0.1) and writes the two [200, 256] results back; the host reshapes
  the [2, 5000, 256] result to [10000, 256]. The reference computes x · W1, then w · (x · W1), then the same rectifier.

  Over the extended reals both are, entry by entry,
      out (i, j) = lrelu (∑ k, w (i, k) · ∑ f, x (k, f) · W1 (f, j)):
  a matrix product into a zero accumulator and the host's product are the same finite sum, a change of float format
  is the identity, and the two programs nest the two sums in the same order, so no law beyond the definitions is used
  and the finiteness of the inputs is never opened. The rectifier's constants are the same patterns on both sides.

  The three runs: the kernel's and its idealization's frames are the generated ones; the reference's run is read from
  its ten host operations (Proof/RefRun.lean). The kernel's value: the scratch holds S after every point (induction over
  the points), each point's output block is the rectifier of its adjacency rows against S, the blocks cover the result
  array, and the reshapes on both ends are re-indexings (Proof/Pieces.lean, Blocks.lean, Final.lean). The idealization
  rewrote nothing, so the preservation claim is trivial.
-/
import proofs.«125606_g30846455120381_cont_8to1_b_726_7_alg».proof.Defs
import proofs.«125606_g30846455120381_cont_8to1_b_726_7_alg».proof.Proof.Gen.Kernel
import proofs.«125606_g30846455120381_cont_8to1_b_726_7_alg».proof.Proof.Gen.Kernel.Frame
import proofs.«125606_g30846455120381_cont_8to1_b_726_7_alg».proof.Proof.Gen.KernelIdeal
import proofs.«125606_g30846455120381_cont_8to1_b_726_7_alg».proof.Proof.Gen.KernelIdeal.Frame
import proofs.«125606_g30846455120381_cont_8to1_b_726_7_alg».proof.Proof.Gen.ReferenceIdeal
import proofs.«125606_g30846455120381_cont_8to1_b_726_7_alg».proof.Proof.Gen.Pre_finite_inputs
import proofs.«125606_g30846455120381_cont_8to1_b_726_7_alg».proof.Proof.Final
import proofs.«125606_g30846455120381_cont_8to1_b_726_7_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end with the result buffer at the layer's output of the (agreeing) argument arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
